-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S1536x512 : Shape := ⟨2, ![1536, 512]⟩
abbrev S1536 : Shape := ⟨1, ![1536]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S1536 .f32) (main_arg5 : FVec F S1536 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536 .f32 := Host.absf main_arg5
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  main_v28

def fn {F : FTy → Type} [FloatOps F] (main_arg0 : FVec F S8192x512 .f32) (main_arg1 : FVec F S8192x512 .f32) (main_arg2 : FVec F S1536x512 .f32) (main_arg3 : FVec F S1536x512 .f32) (main_arg4 : FVec F S1536 .f32) (main_arg5 : FVec F S1536 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536x512 .f32 := Host.absf main_arg3
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg4 main_arg5 main_v13 main_v16
-- ==== Kernel.lean ====
abbrev S8192x512 : Shape := ⟨2, ![8192, 512]⟩
abbrev S1536x512 : Shape := ⟨2, ![1536, 512]⟩
abbrev S1536 : Shape := ⟨1, ![1536]⟩
abbrev S512x1536 : Shape := ⟨2, ![512, 1536]⟩
abbrev S1x1536 : Shape := ⟨2, ![1, 1536]⟩
abbrev S512x512 : Shape := ⟨2, ![512, 512]⟩

abbrev nBuf : Space → Nat
  | .hbm => 13
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1536x512, .f32⟩
  | .hbm, ⟨3, _⟩ => ⟨S1536x512, .f32⟩
  | .hbm, ⟨4, _⟩ => ⟨S1536, .f32⟩
  | .hbm, ⟨5, _⟩ => ⟨S1536, .f32⟩
  | .hbm, ⟨6, _⟩ => ⟨S512x1536, .f32⟩
  | .hbm, ⟨7, _⟩ => ⟨S512x1536, .bf16⟩
  | .hbm, ⟨8, _⟩ => ⟨S512x1536, .f32⟩
  | .hbm, ⟨9, _⟩ => ⟨S512x1536, .bf16⟩
  | .hbm, ⟨10, _⟩ => ⟨S1x1536, .f32⟩
  | .hbm, ⟨11, _⟩ => ⟨S1x1536, .f32⟩
  | .hbm, ⟨12, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S1x1536, .f32⟩
  | .local _ .vmem, ⟨8, _⟩ => ⟨S512x512, .f32⟩
  | .local _ .vmem, ⟨9, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1536x512_S512x1536_1_0 : S1536x512.Transposes [1, 0] S512x1536
  bitsLt_bf16_f32 : FTy.bits .bf16 < FTy.bits .f32
  shapeCasts_S1536_S1x1536 : S1536.ShapeCasts S1x1536
  inb_S512x512_S512x512_0_0 : ∀ a, (![0, 0] : Fin 2 → Nat) a + S512x512.size a ≤ S512x512.size a
  h_S512x512 : 0 < S512x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  dot_S512x512_S512x1536_S512x1536_1_0_0_1_n_n_wf : DotDims.WF S512x512 S512x1536 S512x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x1536.size a
  hwx0_5 : ∀ i : grid0.Coords, EltTy.bits .f32 = 32 ∨ (Rect.block (s := S1x1536) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S8192x512.size a
  hwx0_6 : ∀ i : grid0.Coords, EltTy.bits .f32 = 32 ∨ (Rect.block (s := S8192x512) S512x512.size (cc0_transform_6 i) (hinb0_6 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S1536x512 : Shape := ⟨2, ![1536, 512]⟩
abbrev S1536 : Shape := ⟨1, ![1536]⟩
abbrev S512x1536 : Shape := ⟨2, ![512, 1536]⟩
abbrev S8192x1536 : Shape := ⟨2, ![8192, 1536]⟩
abbrev S1x1536 : Shape := ⟨2, ![1, 1536]⟩
abbrev S_ : Shape := ⟨0, ![]⟩

abbrev nBuf : Space → Nat
  | .hbm => 211
  | .vmem => 0
  | .smem => 0
  | _ => 0

abbrev hbmTy0_0 (i : Nat) : BufTy := match i % 128 with
  | 0 => ⟨S8192x512, .f32⟩
  | 1 => ⟨S8192x512, .f32⟩
  | 2 => ⟨S1536x512, .f32⟩
  | 3 => ⟨S1536x512, .f32⟩
  | 4 => ⟨S1536, .f32⟩
  | 5 => ⟨S1536, .f32⟩
  | 6 => ⟨S512x1536, .f32⟩
  | 7 => ⟨S8192x1536, .f32⟩
  | 8 => ⟨S1x1536, .f32⟩
  | 9 => ⟨S8192x1536, .f32⟩
  | 10 => ⟨S8192x1536, .f32⟩
  | 11 => ⟨S512x1536, .f32⟩
  | 12 => ⟨S8192x1536, .f32⟩
  | 13 => ⟨S1x1536, .f32⟩
  | 14 => ⟨S8192x1536, .f32⟩
  | 15 => ⟨S8192x1536, .f32⟩
  | 16 => ⟨S_, .f32⟩
  | 17 => ⟨S8192x1536, .f32⟩
  | 18 => ⟨S8192x1536, .f32⟩
  | 19 => ⟨S_, .f32⟩
  | 20 => ⟨S8192x1536, .f32⟩
  | 21 => ⟨S8192x1536, .f32⟩
  | 22 => ⟨S8192x1536, .f32⟩
  | 23 => ⟨S_, .f32⟩
  | 24 => ⟨S8192x1536, .f32⟩
  | 25 => ⟨S8192x1536, .f32⟩
  | 26 => ⟨S8192x1536, .f32⟩
  | 27 => ⟨S8192x1536, .f32⟩
  | 28 => ⟨S_, .f32⟩
  | 29 => ⟨S8192x1536, .f32⟩
  | 30 => ⟨S8192x1536, .f32⟩
  | 31 => ⟨S_, .f32⟩
  | 32 => ⟨S8192x1536, .f32⟩
  | 33 => ⟨S8192x1536, .f32⟩
  | 34 => ⟨S8192x1536, .f32⟩
  | 35 => ⟨S_, .f32⟩
  | 36 => ⟨S8192x1536, .f32⟩
  | 37 => ⟨S8192x1536, .f32⟩
  | 38 => ⟨S8192x1536, .f32⟩
  | 39 => ⟨S8192x1536, .f32⟩
  | 40 => ⟨S8192x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S_, .f32⟩
  | 51 => ⟨S8192x512, .f32⟩
  | 52 => ⟨S8192x512, .f32⟩
  | 53 => ⟨S8192x512, .f32⟩
  | 54 => ⟨S_, .f32⟩
  | 55 => ⟨S_, .f32⟩
  | 56 => ⟨S_, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S_, .f32⟩
  | 63 => ⟨S8192x512, .f32⟩
  | 64 => ⟨S8192x512, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S_, .f32⟩
  | 71 => ⟨S8192x512, .f32⟩
  | 72 => ⟨S8192x512, .f32⟩
  | 73 => ⟨S_, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S8192x512, .f32⟩
  | 87 => ⟨S_, .f32⟩
  | 88 => ⟨S8192x512, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S_, .f32⟩
  | 99 => ⟨S_, .f32⟩
  | 100 => ⟨S_, .f32⟩
  | 101 => ⟨S8192x512, .f32⟩
  | 102 => ⟨S8192x512, .f32⟩
  | 103 => ⟨S_, .f32⟩
  | 104 => ⟨S8192x512, .f32⟩
  | 105 => ⟨S8192x512, .f32⟩
  | 106 => ⟨S_, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S_, .f32⟩
  | 115 => ⟨S8192x512, .f32⟩
  | 116 => ⟨S8192x512, .f32⟩
  | 117 => ⟨S_, .f32⟩
  | 118 => ⟨S8192x512, .f32⟩
  | 119 => ⟨S8192x512, .f32⟩
  | 120 => ⟨S_, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S_, .f32⟩
  | _ => ⟨S8192x512, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S8192x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S_, .f32⟩
  | 36 => ⟨S8192x512, .f32⟩
  | 37 => ⟨S8192x512, .f32⟩
  | 38 => ⟨S8192x512, .f32⟩
  | 39 => ⟨S_, .f32⟩
  | 40 => ⟨S_, .f32⟩
  | 41 => ⟨S_, .f32⟩
  | 42 => ⟨S8192x512, .f32⟩
  | 43 => ⟨S8192x512, .f32⟩
  | 44 => ⟨S_, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S_, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S8192x512, .f32⟩
  | 58 => ⟨S_, .f32⟩
  | 59 => ⟨S8192x512, .f32⟩
  | 60 => ⟨S8192x512, .f32⟩
  | 61 => ⟨S_, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S_, .f32⟩
  | 69 => ⟨S8192x512, .f32⟩
  | 70 => ⟨S8192x512, .f32⟩
  | 71 => ⟨S_, .f32⟩
  | 72 => ⟨S8192x512, .f32⟩
  | 73 => ⟨S8192x512, .f32⟩
  | 74 => ⟨S8192x512, .f32⟩
  | 75 => ⟨S_, .f32⟩
  | 76 => ⟨S8192x512, .f32⟩
  | 77 => ⟨S8192x512, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_cst_8 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_14 : Ref sig .tc := ⟨.hbm, 80, rfl⟩
abbrev main_v54 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_16 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_17 : Ref sig .tc := ⟨.hbm, 91, rfl⟩
abbrev main_v62 : Ref sig .tc := ⟨.hbm, 92, rfl⟩
abbrev main_v63 : Ref sig .tc := ⟨.hbm, 93, rfl⟩
abbrev main_cst_18 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_19 : Ref sig .tc := ⟨.hbm, 98, rfl⟩
abbrev main_cst_20 : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v67 : Ref sig .tc := ⟨.hbm, 105, rfl⟩
abbrev main_cst_21 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_22 : Ref sig .tc := ⟨.hbm, 111, rfl⟩
abbrev main_v72 : Ref sig .tc := ⟨.hbm, 112, rfl⟩
abbrev main_v73 : Ref sig .tc := ⟨.hbm, 113, rfl⟩
abbrev main_cst_23 : Ref sig .tc := ⟨.hbm, 114, rfl⟩
abbrev main_v74 : Ref sig .tc := ⟨.hbm, 115, rfl⟩
abbrev main_v75 : Ref sig .tc := ⟨.hbm, 116, rfl⟩
abbrev main_cst_24 : Ref sig .tc := ⟨.hbm, 117, rfl⟩
abbrev main_v76 : Ref sig .tc := ⟨.hbm, 118, rfl⟩
abbrev main_v77 : Ref sig .tc := ⟨.hbm, 119, rfl⟩
abbrev main_cst_25 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_26 : Ref sig .tc := ⟨.hbm, 124, rfl⟩
abbrev main_v81 : Ref sig .tc := ⟨.hbm, 125, rfl⟩
abbrev main_v82 : Ref sig .tc := ⟨.hbm, 126, rfl⟩
abbrev main_cst_27 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_28 : Ref sig .tc := ⟨.hbm, 131, rfl⟩
abbrev main_v86 : Ref sig .tc := ⟨.hbm, 132, rfl⟩
abbrev main_v87 : Ref sig .tc := ⟨.hbm, 133, rfl⟩
abbrev main_cst_29 : Ref sig .tc := ⟨.hbm, 134, rfl⟩
abbrev main_v88 : Ref sig .tc := ⟨.hbm, 135, rfl⟩
abbrev main_v89 : Ref sig .tc := ⟨.hbm, 136, rfl⟩
abbrev main_cst_30 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_cst_31 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_32 : Ref sig .tc := ⟨.hbm, 147, rfl⟩
abbrev main_v98 : Ref sig .tc := ⟨.hbm, 148, rfl⟩
abbrev main_v99 : Ref sig .tc := ⟨.hbm, 149, rfl⟩
abbrev main_cst_33 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_34 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_35 : Ref sig .tc := ⟨.hbm, 160, rfl⟩
abbrev main_v108 : Ref sig .tc := ⟨.hbm, 161, rfl⟩
abbrev main_v109 : Ref sig .tc := ⟨.hbm, 162, rfl⟩
abbrev main_cst_36 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_37 : Ref sig .tc := ⟨.hbm, 167, rfl⟩
abbrev main_cst_38 : Ref sig .tc := ⟨.hbm, 168, rfl⟩
abbrev main_call2_v0 : Ref sig .tc := ⟨.hbm, 169, rfl⟩
abbrev main_call2_v1 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_v113 : Ref sig .tc := ⟨.hbm, 174, rfl⟩
abbrev main_cst_39 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_40 : Ref sig .tc := ⟨.hbm, 179, rfl⟩
abbrev main_v117 : Ref sig .tc := ⟨.hbm, 180, rfl⟩
abbrev main_v118 : Ref sig .tc := ⟨.hbm, 181, rfl⟩
abbrev main_cst_41 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_42 : Ref sig .tc := ⟨.hbm, 186, rfl⟩
abbrev main_v122 : Ref sig .tc := ⟨.hbm, 187, rfl⟩
abbrev main_v123 : Ref sig .tc := ⟨.hbm, 188, rfl⟩
abbrev main_cst_43 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_cst_44 : Ref sig .tc := ⟨.hbm, 193, rfl⟩
abbrev main_v127 : Ref sig .tc := ⟨.hbm, 194, rfl⟩
abbrev main_v128 : Ref sig .tc := ⟨.hbm, 195, rfl⟩
abbrev main_cst_45 : Ref sig .tc := ⟨.hbm, 196, rfl⟩
abbrev main_v129 : Ref sig .tc := ⟨.hbm, 197, rfl⟩
abbrev main_v130 : Ref sig .tc := ⟨.hbm, 198, rfl⟩
abbrev main_cst_46 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_47 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩

abbrev nD : Nat := 1
abbrev τ : Topo := Topo.v7x

variable {F : FTy → Type} [FloatOps F]

class Facts₀ : Prop where
  transposes_S1536x512_S512x1536_1_0 : S1536x512.Transposes [1, 0] S512x1536
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  bcast_S_S8192x1536 : S_.BroadcastsInDim S8192x1536 (![] : Fin 0 → Fin S8192x1536.rank)
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  bcast_S_S8192x512 : S_.BroadcastsInDim S8192x512 (![] : Fin 0 → Fin S8192x512.rank)
  dot_S8192x512_S512x1536_S8192x1536_1_0_0_1_n_n_wf : DotDims.WF S8192x512 S512x1536 S8192x1536 [1] [0] [0] [1] [] []

variable [Facts₀]

def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf

class Facts : Prop extends Facts₀ where

variable [Facts]
-- ==== Proof.Consts.lean ====
/-
  The float constants of the quantised GRU cell, as the extended reals their bit patterns denote when floats
  are read as exact numbers: the fixed-point scales 2^14, 2^15, 2^27, 2^31 and their reciprocals 2^-14, 2^-15,
  2^-16, 2^-27, the rounding offset 1/2, the unit 1, and the two clamp bounds ±2^31. Every one of them is a
  power of two (or its negative), so each pattern is an exact dyadic rational and the statement is an equation
  between a pattern and a real number.
-/
import Idealize.ShloMosaic.PureOps.Ideal

noncomputable section

namespace Cert.QGru

open Idealize.ShloMosaic

/-- 2^14 = 16384, the scale of the two gate pre-activations. -/
theorem ofBits_p14 : Ideal.ofBits .f32 0x46800000#32 = ((16384 : ℝ) : EReal) := by
  simp [Ideal.ofBits, Ideal.ieee, -EReal.coe_mul]; norm_num

/-- 2^-14, the kernel's reciprocal of that scale. -/
theorem ofBits_m14 : Ideal.ofBits .f32 0x38800000#32 = ((1 / 16384 : ℝ) : EReal) := by
  simp [Ideal.ofBits, Ideal.ieee, -EReal.coe_mul]; norm_num

/-- 2^15 = 32768, the Q15 scale. -/
theorem ofBits_p15 : Ideal.ofBits .f32 0x47000000#32 = ((32768 : ℝ) : EReal) := by
  simp [Ideal.ofBits, Ideal.ieee, -EReal.coe_mul]; norm_num

/-- 2^-15. -/
theorem ofBits_m15 : Ideal.ofBits .f32 0x38000000#32 = ((1 / 32768 : ℝ) : EReal) := by
  simp [Ideal.ofBits, Ideal.ieee, -EReal.coe_mul]; norm_num

/-- 2^27 = 134217728, the Q27 scale. -/
theorem ofBits_p27 : Ideal.ofBits .f32 0x4D000000#32 = ((134217728 : ℝ) : EReal) := by
  simp [Ideal.ofBits, Ideal.ieee, -EReal.coe_mul]; norm_num

/-- 2^-27. -/
theorem ofBits_m27 : Ideal.ofBits .f32 0x32000000#32 = ((1 / 134217728 : ℝ) : EReal) := by
  simp [Ideal.ofBits, Ideal.ieee, -EReal.coe_mul]; norm_num

/-- 2^-16, the requantisation from Q31 to Q15. -/
theorem ofBits_m16 : Ideal.ofBits .f32 0x37800000#32 = ((1 / 65536 : ℝ) : EReal) := by
  simp [Ideal.ofBits, Ideal.ieee, -EReal.coe_mul]; norm_num

/-- 2^31, the Q31 scale and the upper clamp bound. -/
theorem ofBits_p31 : Ideal.ofBits .f32 0x4F000000#32 = ((2147483648 : ℝ) : EReal) := by
  simp [Ideal.ofBits, Ideal.ieee, -EReal.coe_mul]; norm_num

/-- -2^31, the lower clamp bound. -/
theorem ofBits_n31 : Ideal.ofBits .f32 0xCF000000#32 = ((-2147483648 : ℝ) : EReal) := by
  simp [Ideal.ofBits, Ideal.ieee, -EReal.coe_mul]; norm_num

/-- 1/2, the rounding offset. -/
theorem ofBits_half : Ideal.ofBits .f32 0x3F000000#32 = ((1 / 2 : ℝ) : EReal) := by
  simp [Ideal.ofBits, Ideal.ieee, -EReal.coe_mul]; norm_num

/-- 1. -/
theorem ofBits_one : Ideal.ofBits .f32 0x3F800000#32 = ((1 : ℝ) : EReal) := by
  simp [Ideal.ofBits, Ideal.ieee, -EReal.coe_mul]; norm_num

end Cert.QGru

end
-- ==== Proof.Cell.lean ====
/-
  One output element of the quantised GRU cell, as a function of seven extended-real numbers: the three
  input-side gate pre-activations, the three hidden-side ones, and the element of the hidden state.

  Two spellings of the same function. The first rounds onto a fixed-point grid by
  q(x) = floor (x * s + 1/2) * s⁻¹ with the reciprocal of the scale s spelled as a constant; the second writes
  the same rounding as x + (floor (x * s + 1/2) / s - x) (the rounded value reached from x by adding the
  correction), divides where the first multiplies by a reciprocal, and spells the logistic function out as
  1 / (1 + exp (-u)). The scales are powers of two, so dividing by s and multiplying by s⁻¹ agree on every
  extended real. The correction form x + (q - x) is q as soon as x is a real number (for an infinite x it would
  not be), and that is what the hypotheses of the equation supply: each rounded quantity is a real number.
-/
import proofs.«143563_j89034672046904_1_alg».proof.Proof.Consts

noncomputable section

namespace Cert.QGru

open Idealize.ShloMosaic

/-! ## Real numbers among the extended reals -/

/-- An extended real that is a real number. -/
def IsR (x : EReal) : Prop := ∃ y : ℝ, x = (y : EReal)

theorem isR_coe (y : ℝ) : IsR (y : EReal) := ⟨y, rfl⟩

theorem IsR.add {a b : EReal} (ha : IsR a) (hb : IsR b) : IsR (a + b) := by
  obtain ⟨x, rfl⟩ := ha; obtain ⟨y, rfl⟩ := hb; exact ⟨x + y, (EReal.coe_add x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.sub {a b : EReal} (ha : IsR a) (hb : IsR b) : IsR (a - b) := by
  obtain ⟨x, rfl⟩ := ha; obtain ⟨y, rfl⟩ := hb; exact ⟨x - y, (EReal.coe_sub x y).symm⟩

/-- The floor of a real number is a real number. -/
theorem IsR.floor {a : EReal} (ha : IsR a) : IsR (Ideal.liftRound Int.floor a) := by
  obtain ⟨x, rfl⟩ := ha; exact ⟨((⌊x⌋ : ℤ) : ℝ), rfl⟩

theorem IsR.logistic {a : EReal} (ha : IsR a) : IsR (Ideal.logistic a) := by
  obtain ⟨x, rfl⟩ := ha; exact ⟨_, Ideal.logistic_coe x⟩

theorem IsR.tanh {a : EReal} (ha : IsR a) : IsR (Ideal.tanh a) := by
  obtain ⟨x, rfl⟩ := ha; exact ⟨_, Ideal.tanh_coe x⟩

/-- An extended real between two real numbers is one. -/
theorem isR_of_between {a b : ℝ} {w : EReal} (h1 : (a : EReal) ≤ w) (h2 : w ≤ (b : EReal)) : IsR w := by
  induction w using EReal.rec with
  | bot => exact absurd (le_bot_iff.mp h1) (EReal.coe_ne_bot a)
  | coe x => exact ⟨x, rfl⟩
  | top => exact absurd (top_le_iff.mp h2) (EReal.coe_ne_top b)

/-- Clamping between two real bounds gives a real number, whatever is clamped. -/
theorem isR_clamp (a b : ℝ) (w : EReal) : IsR (min (b : EReal) (max (a : EReal) w)) := by
  rcases le_total (a : EReal) w with h | h
  · rw [max_eq_right h]
    rcases le_total (b : EReal) w with h' | h'
    · rw [min_eq_left h']; exact ⟨b, rfl⟩
    · rw [min_eq_right h']; exact isR_of_between h h'
  · rw [max_eq_left h]
    rcases le_total (b : EReal) (a : EReal) with h' | h'
    · rw [min_eq_left h']; exact ⟨b, rfl⟩
    · rw [min_eq_right h']; exact ⟨a, rfl⟩

/-- A finite sum of real numbers is a real number. -/
theorem isR_sum {ι : Type*} (s : Finset ι) (f : ι → EReal) (h : ∀ k ∈ s, IsR (f k)) : IsR (∑ k ∈ s, f k) :=
  Finset.sum_induction f IsR (fun _ _ ha hb => ha.add hb) ⟨0, EReal.coe_zero.symm⟩ h

/-- From a real number x, adding the correction z - x reaches z, for every extended real z. -/
theorem add_sub_cancel_coe (y : ℝ) (z : EReal) : (y : EReal) + (z - (y : EReal)) = z := by
  induction z using EReal.rec with
  | bot => rw [EReal.bot_sub, EReal.add_bot]
  | coe x => rw [← EReal.coe_sub, ← EReal.coe_add]; congr 1; ring
  | top => rw [EReal.top_sub_coe, EReal.coe_add_top]

/-! ## The constants -/

abbrev p14 : EReal := Ideal.ofBits .f32 0x46800000#32
abbrev m14 : EReal := Ideal.ofBits .f32 0x38800000#32
abbrev p15 : EReal := Ideal.ofBits .f32 0x47000000#32
abbrev m15 : EReal := Ideal.ofBits .f32 0x38000000#32
abbrev p27 : EReal := Ideal.ofBits .f32 0x4D000000#32
abbrev m27 : EReal := Ideal.ofBits .f32 0x32000000#32
abbrev m16 : EReal := Ideal.ofBits .f32 0x37800000#32
abbrev p31 : EReal := Ideal.ofBits .f32 0x4F000000#32
abbrev n31 : EReal := Ideal.ofBits .f32 0xCF000000#32
abbrev half : EReal := Ideal.ofBits .f32 0x3F000000#32
abbrev one : EReal := Ideal.ofBits .f32 0x3F800000#32

theorem isR_p14 : IsR p14 := ⟨_, ofBits_p14⟩
theorem isR_m14 : IsR m14 := ⟨_, ofBits_m14⟩
theorem isR_p15 : IsR p15 := ⟨_, ofBits_p15⟩
theorem isR_m15 : IsR m15 := ⟨_, ofBits_m15⟩
theorem isR_p27 : IsR p27 := ⟨_, ofBits_p27⟩
theorem isR_m27 : IsR m27 := ⟨_, ofBits_m27⟩
theorem isR_m16 : IsR m16 := ⟨_, ofBits_m16⟩
theorem isR_p31 : IsR p31 := ⟨_, ofBits_p31⟩
theorem isR_half : IsR half := ⟨_, ofBits_half⟩

/-- Dividing by 2^14 is multiplying by 2^-14, on every extended real. -/
theorem div_p14 (x : EReal) : Ideal.div x p14 = x * m14 := by
  show Ideal.div x (Ideal.ofBits .f32 0x46800000#32) = x * Ideal.ofBits .f32 0x38800000#32
  rw [ofBits_p14, ofBits_m14]; exact Ideal.div_coe (by norm_num) x

/-- Dividing by 2^15 is multiplying by 2^-15. -/
theorem div_p15 (x : EReal) : Ideal.div x p15 = x * m15 := by
  show Ideal.div x (Ideal.ofBits .f32 0x47000000#32) = x * Ideal.ofBits .f32 0x38000000#32
  rw [ofBits_p15, ofBits_m15]; exact Ideal.div_coe (by norm_num) x

/-- Dividing by 2^27 is multiplying by 2^-27. -/
theorem div_p27 (x : EReal) : Ideal.div x p27 = x * m27 := by
  show Ideal.div x (Ideal.ofBits .f32 0x4D000000#32) = x * Ideal.ofBits .f32 0x32000000#32
  rw [ofBits_p27, ofBits_m27]; exact Ideal.div_coe (by norm_num) x

/-! ## Rounding onto a fixed-point grid -/

/-- Rounding to the grid of step s⁻¹, the reciprocal spelled as the constant `si`. -/
def quantK (s si x : EReal) : EReal := Ideal.liftRound Int.floor (x * s + half) * si

/-- The same rounding written as x plus the correction that reaches the rounded value. -/
def quantR (s x : EReal) : EReal := x + (Ideal.div (Ideal.liftRound Int.floor (x * s + half)) s - x)

theorem IsR.quantK {s si x : EReal} (hx : IsR x) (hs : IsR s) (hsi : IsR si) : IsR (quantK s si x) :=
  (((hx.mul hs).add isR_half).floor).mul hsi

/-- The two spellings agree at a real number, given that dividing by the scale is multiplying by `si`. -/
theorem quant_eq {s si x : EReal} (hdiv : ∀ z, Ideal.div z s = z * si) (hx : IsR x) : quantR s x = quantK s si x := by
  obtain ⟨y, rfl⟩ := hx
  unfold quantR quantK
  rw [hdiv, add_sub_cancel_coe]

/-! ## The quantised sigmoid and hyperbolic tangent -/

/-- Clamp to the signed 32-bit range [-2^31, 2^31]. -/
def clampQ (w : EReal) : EReal := min p31 (max n31 w)

theorem isR_clampQ (w : EReal) : IsR (clampQ w) := by
  unfold clampQ
  show IsR (min (Ideal.ofBits .f32 0x4F000000#32) (max (Ideal.ofBits .f32 0xCF000000#32) w))
  rw [ofBits_p31, ofBits_n31]; exact isR_clamp _ _ w

/-- The argument in Q27, clamped, brought back by the reciprocal scale; the logistic function; the value in Q31,
    requantised to Q15. -/
def sigK (z : EReal) : EReal :=
  Ideal.liftRound Int.floor (Ideal.liftRound Int.floor (Ideal.logistic (clampQ (Ideal.liftRound Int.floor (z * p27 + half)) * m27) * p31 + half) * m16 + half) * m15

/-- The same with quotients by the scales and the logistic function spelled out. -/
def sigR (z : EReal) : EReal :=
  Ideal.div (Ideal.liftRound Int.floor (Ideal.liftRound Int.floor (Ideal.div one (one + Ideal.exp (-(Ideal.div (clampQ (Ideal.liftRound Int.floor (z * p27 + half))) p27))) * p31 + half) * m16 + half)) p15

def tanhK (z : EReal) : EReal :=
  Ideal.liftRound Int.floor (Ideal.liftRound Int.floor (Ideal.tanh (clampQ (Ideal.liftRound Int.floor (z * p27 + half)) * m27) * p31 + half) * m16 + half) * m15

def tanhR (z : EReal) : EReal :=
  Ideal.div (Ideal.liftRound Int.floor (Ideal.liftRound Int.floor (Ideal.tanh (Ideal.div (clampQ (Ideal.liftRound Int.floor (z * p27 + half))) p27) * p31 + half) * m16 + half)) p15

theorem one_eq : one = 1 := by
  show Ideal.ofBits .f32 0x3F800000#32 = 1
  rw [ofBits_one, EReal.coe_one]

theorem sig_eq (z : EReal) : sigR z = sigK z := by
  unfold sigR sigK
  rw [div_p15, div_p27, one_eq]
  rfl

theorem tanh_eq (z : EReal) : tanhR z = tanhK z := by
  unfold tanhR tanhK
  rw [div_p15, div_p27]

/-- The quantised sigmoid is a real number at every argument: the clamp makes its input one. -/
theorem isR_sigK (z : EReal) : IsR (sigK z) := by
  unfold sigK
  exact ((((((isR_clampQ _).mul isR_m27).logistic.mul isR_p31).add isR_half).floor.mul isR_m16).add isR_half).floor.mul isR_m15

/-! ## The cell -/

/-- One element of the new hidden state: reset gate r and update gate z from the rounded pre-activations, the
    candidate n = tanh (round (r * round h_n) + i_n), and n + z * (round h - n). -/
def cellK (ar ai an br bi bn h : EReal) : EReal :=
  tanhK (quantK p15 m15 (sigK (quantK p14 m14 ar + quantK p14 m14 br) * quantK p27 m27 (quantK p14 m14 bn)) + quantK p14 m14 an)
    + sigK (quantK p14 m14 ai + quantK p14 m14 bi)
      * (quantK p15 m15 h
        - tanhK (quantK p15 m15 (sigK (quantK p14 m14 ar + quantK p14 m14 br) * quantK p27 m27 (quantK p14 m14 bn)) + quantK p14 m14 an))

/-- The same element in the correction spelling. -/
def cellR (ar ai an br bi bn h : EReal) : EReal :=
  tanhR (quantR p15 (sigR (quantR p14 ar + quantR p14 br) * quantR p27 (quantR p14 bn)) + quantR p14 an)
    + sigR (quantR p14 ai + quantR p14 bi)
      * (quantR p15 h
        - tanhR (quantR p15 (sigR (quantR p14 ar + quantR p14 br) * quantR p27 (quantR p14 bn)) + quantR p14 an))

/-- At real pre-activations and a real hidden element the two spellings are one number. -/
theorem cell_eq {ar ai an br bi bn h : EReal} (har : IsR ar) (hai : IsR ai) (han : IsR an)
    (hbr : IsR br) (hbi : IsR bi) (hbn : IsR bn) (hh : IsR h) :
    cellR ar ai an br bi bn h = cellK ar ai an br bi bn h := by
  unfold cellR cellK
  rw [quant_eq div_p14 har, quant_eq div_p14 hai, quant_eq div_p14 han, quant_eq div_p14 hbr,
    quant_eq div_p14 hbi, quant_eq div_p14 hbn, quant_eq div_p15 hh,
    quant_eq div_p27 (hbn.quantK isR_p14 isR_m14), sig_eq, sig_eq, tanh_eq,
    quant_eq div_p15 ((isR_sigK _).mul ((hbn.quantK isR_p14 isR_m14).quantK isR_p27 isR_m27))]

end Cert.QGru

end
-- ==== Proof.Finite.lean ====
/-
  Reading the precondition. It is the conjunction of six tests, one per argument array: every entry's absolute
  value is below +∞. On the extended reals |x| = max x (-x) is below +∞ exactly when x is neither infinity, that
  is, when x is a real number. So under the precondition every entry of every argument is a real number.
-/
import Idealize.ShloMosaic.Lib.ValueIdx
import Idealize.ShloMosaic.Lib.ReduceAll
import Idealize.ShloMosaic.Lib.Pipeline.Value
import proofs.«143563_j89034672046904_1_alg».proof.Pre_finite_inputs
import proofs.«143563_j89034672046904_1_alg».proof.Proof.Cell

noncomputable section

namespace Cert.QGru

open Idealize.ShloMosaic Idealize.ShloMosaic.ValueIdx Cert.Pre_finite_inputs

instance : Subsingleton Cert.Pre_finite_inputs.S_.Idx := ⟨fun a b => funext fun d => d.elim0⟩

/-- The pattern of +∞. -/
theorem ofBits_inf : Ideal.ofBits .f32 0x7F800000#32 = ⊤ := by simp [Ideal.ofBits, Ideal.ieee]

/-- An extended real whose absolute value is below +∞ is a real number. -/
theorem isR_of_abs_lt_inf (x : EReal) (h : Ideal.cmp .olt (max x (-x)) (Ideal.ofBits .f32 0x7F800000#32) = 1#1) : IsR x := by
  rw [ofBits_inf] at h
  induction x using EReal.rec with
  | bot => simp [Ideal.cmp] at h
  | coe r => exact ⟨r, rfl⟩
  | top => simp [Ideal.cmp] at h

variable [Cert.Pre_finite_inputs.Facts]

/-- One `all (|v| < +∞)` of the precondition, read at an entry. -/
theorem allR_of_all {s : Shape} (v : FVec Ideal s .f32) (hb : S_.BroadcastsInDim s (![] : Fin 0 → Fin s.rank))
    {axes : List (Fin s.rank)} (hr : s.ReducesTo axes S_) (hu : 0 < S_.numel)
    (e : Host.reduce IntOp.andi (cmpf .olt (Host.absf v) (broadcastInDim s ![] hb (constant S_ .f32 0x7F800000#32))) (constantI S_ 1 1#1) hr hu ix0 = 1#1) :
    ∀ i, IsR (v i) := fun i => by
  have h1 := Host.reduce_andi_all _ _ hr hu ix0 e i
  refine isR_of_abs_lt_inf (v i) ?_
  have hb' : broadcastInDim s ![] hb (constant (F := Ideal) S_ .f32 0x7F800000#32) i = Ideal.ofBits .f32 0x7F800000#32 :=
    broadcastInDim_apply _ hb _ i ix0 (fun a => a.elim0)
  rw [← hb']
  exact h1

end Cert.QGru

namespace Cert.QGru

open Idealize.ShloMosaic Idealize.ShloMosaic.ValueIdx Cert.Pre_finite_inputs

variable [Cert.Pre_finite_inputs.Facts]

/-- The precondition — the conjunction of six `all (|v| < +∞)` — makes every entry of every argument array a real
    number. -/
theorem allR_of_pre (x0 x1 : FVec Ideal S8192x512 .f32) (x2 x3 : FVec Ideal S1536x512 .f32) (x4 x5 : FVec Ideal S1536 .f32)
    (h : Cert.Pre_finite_inputs.fn (F := Ideal) x0 x1 x2 x3 x4 x5 = fun _ => 1#1) :
    (∀ i, IsR (x0 i)) ∧ (∀ i, IsR (x1 i)) ∧ (∀ i, IsR (x2 i)) ∧ (∀ i, IsR (x3 i)) ∧ (∀ i, IsR (x4 i)) ∧ (∀ i, IsR (x5 i)) := by
  have h0 := congrFun h ix0
  dsimp only [fn, fn_part1] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨allR_of_all x0 _ _ _ e0, allR_of_all x1 _ _ _ e1, allR_of_all x2 _ _ _ e2, allR_of_all x3 _ _ _ e3,
    allR_of_all x4 _ _ _ e4, allR_of_all x5 _ _ _ e5⟩

end Cert.QGru

end
-- ==== Proof.Spec.lean ====
/-
  The quantised GRU cell over whole arrays: batch 8192, input and hidden width 512, three gates of 512 columns
  stacked in weight matrices of 1536 rows.

  For batch row a and gate column j the pre-activation is the inner product of row a of the data with row j of
  the weight matrix plus the bias at j. Output element (a, q) is the cell function of the input-side
  pre-activations at columns q, 512 + q, 1024 + q (reset, update, candidate), the hidden-side ones at the same
  three columns, and the hidden state at (a, q).
-/
import Idealize.ShloMosaic.Lib.ValueIdx
import proofs.«143563_j89034672046904_1_alg».proof.Proof.Cell

noncomputable section

open scoped BigOperators

namespace Cert.QGru

open Idealize.ShloMosaic Idealize.ShloMosaic.ValueIdx

/-- Batch by width. -/
abbrev SX : Shape := ⟨2, ![8192, 512]⟩
/-- Stacked gate rows by width. -/
abbrev SW : Shape := ⟨2, ![1536, 512]⟩
/-- Stacked gate biases. -/
abbrev SB : Shape := ⟨1, ![1536]⟩

/-- Row `a` of the data against row `j` of the weights, plus the bias at `j`. -/
def preact (x : SX.Idx → EReal) (w : SW.Idx → EReal) (b : SB.Idx → EReal) (a : Fin 8192) (j : Fin 1536) : EReal :=
  (∑ k : Fin 512, x (ix2 a k) * w (ix2 j k)) + b (ix1 j)

/-- Column `q` of the reset gate, -/
abbrev colR (q : Fin 512) : Fin 1536 := ⟨q.val, by omega⟩
/-- of the update gate, -/
abbrev colI (q : Fin 512) : Fin 1536 := ⟨512 + q.val, by omega⟩
/-- of the candidate. -/
abbrev colN (q : Fin 512) : Fin 1536 := ⟨1024 + q.val, by omega⟩

/-- Element (a, q) of the new hidden state, roundings in the reciprocal spelling. -/
def hyK (x h : SX.Idx → EReal) (wi wh : SW.Idx → EReal) (bi bh : SB.Idx → EReal) (a : Fin 8192) (q : Fin 512) : EReal :=
  cellK (preact x wi bi a (colR q)) (preact x wi bi a (colI q)) (preact x wi bi a (colN q))
    (preact h wh bh a (colR q)) (preact h wh bh a (colI q)) (preact h wh bh a (colN q)) (h (ix2 a q))

/-- The same element, roundings in the correction spelling. -/
def hyR (x h : SX.Idx → EReal) (wi wh : SW.Idx → EReal) (bi bh : SB.Idx → EReal) (a : Fin 8192) (q : Fin 512) : EReal :=
  cellR (preact x wi bi a (colR q)) (preact x wi bi a (colI q)) (preact x wi bi a (colN q))
    (preact h wh bh a (colR q)) (preact h wh bh a (colI q)) (preact h wh bh a (colN q)) (h (ix2 a q))

/-- The new hidden state as one array. -/
def hyArr (x h : SX.Idx → EReal) (wi wh : SW.Idx → EReal) (bi bh : SB.Idx → EReal) : SX.Idx → EReal :=
  fun i => hyK x h wi wh bi bh ⟨(i 0).val, (i 0).isLt⟩ ⟨(i 1).val, (i 1).isLt⟩

/-- The array at an index whose coordinates are `a` and `q`. -/
theorem hyArr_at (x h : SX.Idx → EReal) (wi wh : SW.Idx → EReal) (bi bh : SB.Idx → EReal) (i : SX.Idx) (a : Fin 8192) (q : Fin 512)
    (ha : (i 0).val = a.val) (hq : (i 1).val = q.val) : hyArr x h wi wh bi bh i = hyK x h wi wh bi bh a q := by
  unfold hyArr
  rw [show (⟨(i 0).val, (i 0).isLt⟩ : Fin 8192) = a from Fin.ext ha, show (⟨(i 1).val, (i 1).isLt⟩ : Fin 512) = q from Fin.ext hq]

/-- Every entry of an array is a real number. -/
def AllR {s : Shape} (v : s.Idx → EReal) : Prop := ∀ i, IsR (v i)

theorem isR_preact {x : SX.Idx → EReal} {w : SW.Idx → EReal} {b : SB.Idx → EReal} (hx : AllR x) (hw : AllR w) (hb : AllR b)
    (a : Fin 8192) (j : Fin 1536) : IsR (preact x w b a j) :=
  (isR_sum _ _ fun k _ => (hx _).mul (hw _)).add (hb _)

/-- On arrays of real numbers the two spellings give one array. -/
theorem hyR_eq {x h : SX.Idx → EReal} {wi wh : SW.Idx → EReal} {bi bh : SB.Idx → EReal}
    (hx : AllR x) (hh : AllR h) (hwi : AllR wi) (hwh : AllR wh) (hbi : AllR bi) (hbh : AllR bh) (a : Fin 8192) (q : Fin 512) :
    hyR x h wi wh bi bh a q = hyK x h wi wh bi bh a q :=
  cell_eq (isR_preact hx hwi hbi a _) (isR_preact hx hwi hbi a _) (isR_preact hx hwi hbi a _)
    (isR_preact hh hwh hbh a _) (isR_preact hh hwh hbh a _) (isR_preact hh hwh hbh a _) (hh _)

end Cert.QGru

end
-- ==== Proof.RefValue.lean ====
/-
  The value of the reference program at one output element, read with floats as extended reals and every
  operation exact.

  The program forms the input-side pre-activations x · W_ihᵀ + b_ih and the hidden-side ones h · W_hhᵀ + b_hh
  (8192 rows, 1536 = 3 · 512 gate columns each), rounds both onto the grid of step 2^-14 in the correction
  spelling x + (floor (x · 2^14 + 1/2) / 2^14 − x), and cuts each into its reset, update and candidate column
  blocks [0, 512), [512, 1024), [1024, 1536). The reset gate is the quantised sigmoid of the sum of the two
  reset blocks and the update gate that of the two update blocks; the hidden-side candidate block is rounded
  again (step 2^-27), multiplied by the reset gate, the product rounded (step 2^-15) and added to the input-side
  candidate block, and the quantised hyperbolic tangent of that is the candidate n. With z the update gate and
  q the hidden state rounded to step 2^-15, the result is n + z · (q − n).

  Each stretch of the program that computes one of these roundings or gates is identified, element by element,
  with the corresponding function of the cell (both sides are the same expression in the same operand order, so
  after reading every operation at the index the two sides agree by unfolding). A pre-activation element is the
  inner product of a data row with a weight row plus a bias element once the transposed weight matrix and the
  twice-broadcast bias are read back at the right index. Putting the pieces together gives: output element
  (a, q) is the cell function of the six pre-activations at columns q, 512 + q, 1024 + q and of h (a, q).
-/
import proofs.«143563_j89034672046904_1_alg».proof.Proof.Gen.ReferenceIdeal.Read
import proofs.«143563_j89034672046904_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.QGru

/-! ## The two pre-activation arrays rounded to step 2^-14 -/

/-- The input-side pre-activations rounded to step 2^-14: x + (floor (x · 2^14 + 1/2) / 2^14 − x), elementwise. -/
theorem v18_eq (x0 : FVec Ideal S8192x512 .f32) (x2 : FVec Ideal S1536x512 .f32) (x4 : FVec Ideal S1536 .f32) (j : S8192x1536.Idx) :
    val_main_v18 (F := Ideal) x0 x2 x4 j
      = quantR p14 (val_main_v4 (F := Ideal) x0 x2 x4 j) := by
  simp only [
    val_main_cst_apply, val_main_v10_apply, val_main_v11_apply, val_main_cst_0_apply, val_main_v12_apply,
    val_main_v13_apply, val_main_v14_apply, val_main_cst_1_apply, val_main_v15_apply, val_main_v16_apply,
    val_main_v17_apply, val_main_v18_apply]
  rfl

/-- The hidden-side pre-activations rounded to step 2^-14. -/
theorem v27_eq (x1 : FVec Ideal S8192x512 .f32) (x3 : FVec Ideal S1536x512 .f32) (x5 : FVec Ideal S1536 .f32) (j : S8192x1536.Idx) :
    val_main_v27 (F := Ideal) x1 x3 x5 j
      = quantR p14 (val_main_v9 (F := Ideal) x1 x3 x5 j) := by
  simp only [
    val_main_cst_2_apply, val_main_v19_apply, val_main_v20_apply, val_main_cst_3_apply, val_main_v21_apply,
    val_main_v22_apply, val_main_v23_apply, val_main_cst_4_apply, val_main_v24_apply, val_main_v25_apply,
    val_main_v26_apply, val_main_v27_apply]
  rfl

/-! ## The gates -/

/-- The reset gate: scale the summed reset blocks by 2^27 and round, clamp to [-2^31, 2^31], divide by 2^27, take
    1 / (1 + exp (−u)), scale by 2^31 and round, scale by 2^-16 and round, divide by 2^15. -/
theorem v60_eq (x0 x1 : FVec Ideal S8192x512 .f32) (x2 x3 : FVec Ideal S1536x512 .f32) (x4 x5 : FVec Ideal S1536 .f32) (i : S8192x512.Idx) :
    val_main_v60 (F := Ideal) x0 x1 x2 x3 x4 x5 i
      = sigR (val_main_v34 (F := Ideal) x0 x1 x2 x3 x4 x5 i) := by
  simp only [
    val_main_cst_5_apply, val_main_v35_apply, val_main_v36_apply, val_main_cst_6_apply, val_main_v37_apply,
    val_main_v38_apply, val_main_v39_apply, val_main_cst_7_apply, val_main_cst_8_apply, val_main_call0_v0_apply,
    val_main_call0_v1_apply, val_main_call0_v2_apply, val_main_call0_v3_apply, val_main_call0_v4_apply,
    val_main_v40_apply, val_main_cst_9_apply, val_main_v41_apply, val_main_v42_apply, val_main_v43_apply,
    val_main_v44_apply, val_main_cst_10_apply, val_main_v45_apply, val_main_v46_apply, val_main_cst_11_apply,
    val_main_v47_apply, val_main_v48_apply, val_main_cst_12_apply, val_main_v49_apply, val_main_v50_apply,
    val_main_cst_13_apply, val_main_v51_apply, val_main_v52_apply, val_main_v53_apply, val_main_cst_14_apply,
    val_main_v54_apply, val_main_v55_apply, val_main_cst_15_apply, val_main_v56_apply, val_main_v57_apply,
    val_main_v58_apply, val_main_cst_16_apply, val_main_v59_apply, val_main_v60_apply]
  rfl

/-- The update gate: the same quantised sigmoid of the summed update blocks. -/
theorem v87_eq (x0 x1 : FVec Ideal S8192x512 .f32) (x2 x3 : FVec Ideal S1536x512 .f32) (x4 x5 : FVec Ideal S1536 .f32) (i : S8192x512.Idx) :
    val_main_v87 (F := Ideal) x0 x1 x2 x3 x4 x5 i
      = sigR (val_main_v61 (F := Ideal) x0 x1 x2 x3 x4 x5 i) := by
  simp only [
    val_main_cst_17_apply, val_main_v62_apply, val_main_v63_apply, val_main_cst_18_apply, val_main_v64_apply,
    val_main_v65_apply, val_main_v66_apply, val_main_cst_19_apply, val_main_cst_20_apply, val_main_call1_v0_apply,
    val_main_call1_v1_apply, val_main_call1_v2_apply, val_main_call1_v3_apply, val_main_call1_v4_apply,
    val_main_v67_apply, val_main_cst_21_apply, val_main_v68_apply, val_main_v69_apply, val_main_v70_apply,
    val_main_v71_apply, val_main_cst_22_apply, val_main_v72_apply, val_main_v73_apply, val_main_cst_23_apply,
    val_main_v74_apply, val_main_v75_apply, val_main_cst_24_apply, val_main_v76_apply, val_main_v77_apply,
    val_main_cst_25_apply, val_main_v78_apply, val_main_v79_apply, val_main_v80_apply, val_main_cst_26_apply,
    val_main_v81_apply, val_main_v82_apply, val_main_cst_27_apply, val_main_v83_apply, val_main_v84_apply,
    val_main_v85_apply, val_main_cst_28_apply, val_main_v86_apply, val_main_v87_apply]
  rfl

/-! ## The candidate -/

/-- The hidden-side candidate block rounded to step 2^-27. -/
theorem v96_eq (x1 : FVec Ideal S8192x512 .f32) (x3 : FVec Ideal S1536x512 .f32) (x5 : FVec Ideal S1536 .f32) (i : S8192x512.Idx) :
    val_main_v96 (F := Ideal) x1 x3 x5 i
      = quantR p27 (val_main_v33 (F := Ideal) x1 x3 x5 i) := by
  simp only [
    val_main_cst_29_apply, val_main_v88_apply, val_main_v89_apply, val_main_cst_30_apply, val_main_v90_apply,
    val_main_v91_apply, val_main_v92_apply, val_main_cst_31_apply, val_main_v93_apply, val_main_v94_apply,
    val_main_v95_apply, val_main_v96_apply]
  rfl

/-- The product of the reset gate with that block, rounded to step 2^-15. -/
theorem v106_eq (x0 x1 : FVec Ideal S8192x512 .f32) (x2 x3 : FVec Ideal S1536x512 .f32) (x4 x5 : FVec Ideal S1536 .f32) (i : S8192x512.Idx) :
    val_main_v106 (F := Ideal) x0 x1 x2 x3 x4 x5 i
      = quantR p15 (val_main_v97 (F := Ideal) x0 x1 x2 x3 x4 x5 i) := by
  simp only [
    val_main_cst_32_apply, val_main_v98_apply, val_main_v99_apply, val_main_cst_33_apply, val_main_v100_apply,
    val_main_v101_apply, val_main_v102_apply, val_main_cst_34_apply, val_main_v103_apply, val_main_v104_apply,
    val_main_v105_apply, val_main_v106_apply]
  rfl

/-- The candidate: scale by 2^27 and round, clamp, divide by 2^27, take tanh, scale by 2^31 and round, scale by 2^-16
    and round, divide by 2^15. -/
theorem v128_eq (x0 x1 : FVec Ideal S8192x512 .f32) (x2 x3 : FVec Ideal S1536x512 .f32) (x4 x5 : FVec Ideal S1536 .f32) (i : S8192x512.Idx) :
    val_main_v128 (F := Ideal) x0 x1 x2 x3 x4 x5 i
      = tanhR (val_main_v107 (F := Ideal) x0 x1 x2 x3 x4 x5 i) := by
  simp only [
    val_main_cst_35_apply, val_main_v108_apply, val_main_v109_apply, val_main_cst_36_apply, val_main_v110_apply,
    val_main_v111_apply, val_main_v112_apply, val_main_cst_37_apply, val_main_cst_38_apply, val_main_call2_v0_apply,
    val_main_call2_v1_apply, val_main_call2_v2_apply, val_main_call2_v3_apply, val_main_call2_v4_apply,
    val_main_v113_apply, val_main_cst_39_apply, val_main_v114_apply, val_main_v115_apply, val_main_v116_apply,
    val_main_cst_40_apply, val_main_v117_apply, val_main_v118_apply, val_main_cst_41_apply, val_main_v119_apply,
    val_main_v120_apply, val_main_v121_apply, val_main_cst_42_apply, val_main_v122_apply, val_main_v123_apply,
    val_main_cst_43_apply, val_main_v124_apply, val_main_v125_apply, val_main_v126_apply, val_main_cst_44_apply,
    val_main_v127_apply, val_main_v128_apply]
  rfl

/-- The hidden state rounded to step 2^-15. -/
theorem v137_eq (x1 : FVec Ideal S8192x512 .f32) (i : S8192x512.Idx) :
    val_main_v137 (F := Ideal) x1 i
      = quantR p15 (x1 i) := by
  simp only [
    val_main_cst_45_apply, val_main_v129_apply, val_main_v130_apply, val_main_cst_46_apply, val_main_v131_apply,
    val_main_v132_apply, val_main_v133_apply, val_main_cst_47_apply, val_main_v134_apply, val_main_v135_apply,
    val_main_v136_apply, val_main_v137_apply]
  rfl

/-! ## The pre-activations -/

/-- Element (a, c) of x · W_ihᵀ + b_ih is ∑ k, x (a, k) · W_ih (c, k) + b_ih c: the transposed weight matrix read at
    (k, c) is the weight matrix at (c, k), and the bias broadcast to a row and then to all rows, read at (a, c), is the
    bias at c. -/
theorem v4_eq (x0 : FVec Ideal S8192x512 .f32) (x2 : FVec Ideal S1536x512 .f32) (x4 : FVec Ideal S1536 .f32) (j : S8192x1536.Idx) :
    val_main_v4 (F := Ideal) x0 x2 x4 j
      = preact x0 x2 x4 ⟨(j 0).val, (j 0).isLt⟩ ⟨(j 1).val, (j 1).isLt⟩ := by
  rw [val_main_v4_apply, val_main_v1_apply, val_main_v3_apply, val_main_v2_apply]
  simp only [val_main_v0_apply]
  unfold preact
  have el : ∀ k : Fin 512, lidx_main_v1 j k = ix2 (⟨(j 0).val, (j 0).isLt⟩ : Fin 8192) k := fun k =>
    funext fun a => match a with | ⟨0, _⟩ => rfl | ⟨1, _⟩ => rfl
  have er : ∀ k : Fin 512, idx_main_v0 (ridx_main_v1 j k) = ix2 (⟨(j 1).val, (j 1).isLt⟩ : Fin 1536) k := fun k =>
    funext fun a => match a with | ⟨0, _⟩ => rfl | ⟨1, _⟩ => rfl
  have eb : idx_main_v2 (idx_main_v3 j) = ix1 (⟨(j 1).val, (j 1).isLt⟩ : Fin 1536) :=
    funext fun a => match a with | ⟨0, _⟩ => rfl
  simp only [el, er, eb]
  rfl

/-- Element (a, c) of h · W_hhᵀ + b_hh is ∑ k, h (a, k) · W_hh (c, k) + b_hh c. -/
theorem v9_eq (x1 : FVec Ideal S8192x512 .f32) (x3 : FVec Ideal S1536x512 .f32) (x5 : FVec Ideal S1536 .f32) (j : S8192x1536.Idx) :
    val_main_v9 (F := Ideal) x1 x3 x5 j
      = preact x1 x3 x5 ⟨(j 0).val, (j 0).isLt⟩ ⟨(j 1).val, (j 1).isLt⟩ := by
  rw [val_main_v9_apply, val_main_v6_apply, val_main_v8_apply, val_main_v7_apply]
  simp only [val_main_v5_apply]
  unfold preact
  have el : ∀ k : Fin 512, lidx_main_v6 j k = ix2 (⟨(j 0).val, (j 0).isLt⟩ : Fin 8192) k := fun k =>
    funext fun a => match a with | ⟨0, _⟩ => rfl | ⟨1, _⟩ => rfl
  have er : ∀ k : Fin 512, idx_main_v5 (ridx_main_v6 j k) = ix2 (⟨(j 1).val, (j 1).isLt⟩ : Fin 1536) k := fun k =>
    funext fun a => match a with | ⟨0, _⟩ => rfl | ⟨1, _⟩ => rfl
  have eb : idx_main_v7 (idx_main_v8 j) = ix1 (⟨(j 1).val, (j 1).isLt⟩ : Fin 1536) :=
    funext fun a => match a with | ⟨0, _⟩ => rfl
  simp only [el, er, eb]
  rfl

/-! ## The output element -/

/-- The last stage n + z · (q − n) at (a, q), with every rounding and gate identified, is the cell function of the two
    pre-activation arrays read at (a, q), (a, 512 + q), (a, 1024 + q) and of the hidden state at (a, q). -/
theorem v140_cell (x0 x1 : FVec Ideal S8192x512 .f32) (x2 x3 : FVec Ideal S1536x512 .f32) (x4 x5 : FVec Ideal S1536 .f32) (i : S8192x512.Idx) :
    val_main_v140 (F := Ideal) x0 x1 x2 x3 x4 x5 i
      = cellR (val_main_v4 (F := Ideal) x0 x2 x4 (idx_main_v28 i)) (val_main_v4 (F := Ideal) x0 x2 x4 (idx_main_v29 i))
          (val_main_v4 (F := Ideal) x0 x2 x4 (idx_main_v30 i)) (val_main_v9 (F := Ideal) x1 x3 x5 (idx_main_v31 i))
          (val_main_v9 (F := Ideal) x1 x3 x5 (idx_main_v32 i)) (val_main_v9 (F := Ideal) x1 x3 x5 (idx_main_v33 i)) (x1 i) := by
  simp only [val_main_v140_apply, val_main_v139_apply, val_main_v138_apply, v128_eq, v137_eq, v87_eq, val_main_v107_apply,
    v106_eq, val_main_v97_apply, v60_eq, v96_eq, val_main_v34_apply, val_main_v61_apply, val_main_v28_apply,
    val_main_v29_apply, val_main_v30_apply, val_main_v31_apply, val_main_v32_apply, val_main_v33_apply, v18_eq, v27_eq]
  rfl

/-- The reference's last stage at index i is the cell, in its correction spelling, of the pre-activations. -/
theorem ref_eq (x0 x1 : FVec Ideal S8192x512 .f32) (x2 x3 : FVec Ideal S1536x512 .f32) (x4 x5 : FVec Ideal S1536 .f32) (i : S8192x512.Idx) :
    val_main_v140 (F := Ideal) x0 x1 x2 x3 x4 x5 i
      = hyR x0 x1 x2 x3 x4 x5 ⟨(i 0).val, (i 0).isLt⟩ ⟨(i 1).val, (i 1).isLt⟩ := by
  have hi : x1 i = x1 (ix2 (⟨(i 0).val, (i 0).isLt⟩ : Fin 8192) (⟨(i 1).val, (i 1).isLt⟩ : Fin 512)) :=
    congrArg x1 (eq_ix2 i)
  rw [v140_cell, hi]
  simp only [v4_eq, v9_eq]
  rfl

end Cert.ReferenceIdeal.RefValue

end
-- ==== Proof.KernelValue.lean ====
/-
  The kernel's result array, read off its run.

  At grid point t the body sees rows 512 t … 512 t + 511 of the data and of the hidden state, the whole transposed
  weight matrices (512 by 1536) and the two bias rows. It forms both projections as one matrix product each into a
  zero accumulator plus the broadcast bias row, rounds them to step 2^-14, takes the three gate column blocks of each,
  and from there on is pointwise. So element (p, q) of the block it stores is the cell function of the block-level
  pre-activations of row p at columns q, 512 + q, 1024 + q and of the hidden block's element (p, q).

  Reading each window's block back as a part of its argument array (the transposed weights at (k, j) are the weights
  at (j, k); the bias row at (0, j) is the bias at j; the data block's row p is the array's row 512 t + p) turns the
  block-level pre-activation into the array-level one, so what point t writes back is block t of the new hidden state.
  The sixteen blocks cover the output array (row r lies in block r / 512), hence the array after the run is the new
  hidden state everywhere.
-/
import proofs.«143563_j89034672046904_1_alg».proof.Proof.Gen.KernelIdeal.Value
import proofs.«143563_j89034672046904_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.KernelIdeal.KernelValue

open Cert.KernelIdeal Cert.KernelIdeal.Gen Idealize.ShloMosaic Idealize.ShloMosaic.StableHlo Idealize.ShloMosaic.ValueIdx Idealize.ShloMosaic.TcCoe Idealize.SL.Sem Cert.QGru

/-! ## The matrix product at an element -/

theorem lhs_dot_0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem lhs_dot_1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
theorem rhs_dot_0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
theorem rhs_dot_1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl

/-- A block row times the resident weight block, into a zero accumulator, at element (p, j): the inner product of
    row p of the left block with column j of the right one. -/
theorem matmul_at (l : FVec Ideal S512x512 .bf16) (r : FVec Ideal S512x1536 .bf16) (p : Fin 512) (j : Fin 1536) :
    FloatOps.matmul dot_S512x512_S512x1536_S512x1536_1_0_0_1_n_n none l r (constant S512x1536 .f32 0x00000000#32) (ix2 p j)
      = ∑ k : Fin 512, l (ix2 p k) * r (ix2 k j) := by
  rw [Ideal.matmul_constant_zero_apply, ← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 p j) ((contrEquiv1 dot_S512x512_S512x1536_S512x1536_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S512x512_S512x1536_S512x1536_1_0_0_1_n_n.rhsIdx (ix2 p j) ((contrEquiv1 dot_S512x512_S512x1536_S512x1536_1_0_0_1_n_n 512 rfl rfl).symm k) = ix2 k j := funext fun a => Fin.ext (by
    match a with
    | ⟨0, _⟩ => exact (rhs_dot_0 _ _).trans hk
    | ⟨1, _⟩ => exact rhs_dot_1 _ _)
  rw [el, er]

/-- The pre-activation inside a block: row p of the data block against column j of the transposed weight block,
    plus the bias row at j. -/
def bpre (x : Vec Ideal S512x512 .f32) (w : Vec Ideal S512x1536 .bf16) (b : Vec Ideal S1x1536 .f32) (p : Fin 512) (j : Fin 1536) : EReal :=
  (∑ k : Fin 512, x (ix2 p k) * w (ix2 k j)) + b (ix2 (⟨0, Nat.one_pos⟩ : Fin 1) j)

/-- The bias row, broadcast down the block's rows. -/
theorem bias_at (b : Vec Ideal S1x1536 .f32) (p : Fin 512) (j : Fin 1536) :
    broadcastTo S512x1536 (shapeCast S1x1536 b shapeCasts_S1x1536_S1x1536) broadcasts_S1x1536_S512x1536 (ix2 p j)
      = b (ix2 (⟨0, Nat.one_pos⟩ : Fin 1) j) := by
  rw [shapeCast_self]
  exact broadcastTo_apply b broadcasts_S1x1536_S512x1536 (ix2 p j) (ix2 (⟨0, Nat.one_pos⟩ : Fin 1) j) (fun a => match a with
    | ⟨0, _⟩ => by show 0 = if (1 : Nat) = 1 then 0 else _; rw [if_pos rfl]
    | ⟨1, _⟩ => by show j.val = if (1536 : Nat) = 1 then 0 else _; rw [if_neg (by decide)]; rfl)

/-- The first projection, rounded to the 2^-14 grid, at element (p, j). -/
theorem pay2_at (x : Vec Ideal S512x512 .f32) (w : Vec Ideal S512x1536 .bf16) (b : Vec Ideal S1x1536 .f32) (p : Fin 512) (j : Fin 1536) :
    k0_pay2 (F := Ideal) x w b (ix2 p j) = quantK p14 m14 (bpre x w b p j) := by
  show quantK p14 m14 (FloatOps.matmul (F := Ideal) dot_S512x512_S512x1536_S512x1536_1_0_0_1_n_n none (truncf .bf16 x bitsLt_bf16_f32) (shapeCast S512x1536 w shapeCasts_S512x1536_S512x1536) (constant S512x1536 .f32 0x00000000#32) (ix2 p j)
      + broadcastTo S512x1536 (shapeCast S1x1536 b shapeCasts_S1x1536_S1x1536) broadcasts_S1x1536_S512x1536 (ix2 p j)) = _
  rw [matmul_at, bias_at, shapeCast_self]
  rfl

/-- The second projection likewise. -/
theorem pay3_at (x : Vec Ideal S512x512 .f32) (w : Vec Ideal S512x1536 .bf16) (b : Vec Ideal S1x1536 .f32) (p : Fin 512) (j : Fin 1536) :
    k0_pay3 (F := Ideal) x w b (ix2 p j) = quantK p14 m14 (bpre x w b p j) := by
  show quantK p14 m14 (FloatOps.matmul (F := Ideal) dot_S512x512_S512x1536_S512x1536_1_0_0_1_n_n none (truncf .bf16 x bitsLt_bf16_f32) (shapeCast S512x1536 w shapeCasts_S512x1536_S512x1536) (constant S512x1536 .f32 0x00000000#32) (ix2 p j)
      + broadcastTo S512x1536 (shapeCast S1x1536 b shapeCasts_S1x1536_S1x1536) broadcasts_S1x1536_S512x1536 (ix2 p j)) = _
  rw [matmul_at, bias_at, shapeCast_self]
  rfl

/-! ## The body's arithmetic at one element -/

/-- The reset-gate sigmoid, at an element. -/
theorem pay9_at (g8 : FVec Ideal S512x512 .f32) (i : S512x512.Idx) : k0_pay9 (F := Ideal) g8 i = sigK (g8 i) := by
  simp only [k0_pay9, sigK, clampQ, mulf, addf, floor, maximumf, minimumf, logistic, broadcast, Ideal.mulf_def, Ideal.addf_def,
    Ideal.floor_def, Ideal.maximumf_def, Ideal.minimumf_def, Ideal.logistic_def, Ideal.ofBits_def]

/-- The update-gate sigmoid (its last requantisation is the continuation `k0_pay11`), at an element. -/
theorem pay11_at (g4 g6 : FVec Ideal S512x512 .f32) (i : S512x512.Idx) :
    k0_pay11 (F := Ideal) (k0_pay10 g4 g6) (Scalar.ofBits .f32 0x37800000#32) i = sigK (g4 i + g6 i) := by
  simp only [k0_pay11, k0_pay10, sigK, clampQ, mulf, addf, floor, maximumf, minimumf, logistic, broadcast, Ideal.mulf_def, Ideal.addf_def,
    Ideal.floor_def, Ideal.maximumf_def, Ideal.minimumf_def, Ideal.logistic_def, Ideal.ofBits_def]

/-- The candidate's hyperbolic tangent in Q31, requantised by 2^-16 (the last rounding to Q15 is in `k0_pay1`). -/
theorem pay12_at (g5 g7 r : FVec Ideal S512x512 .f32) (i : S512x512.Idx) :
    k0_pay12 (F := Ideal) g5 g7 r i
      = Ideal.liftRound Int.floor (Ideal.tanh (clampQ (Ideal.liftRound Int.floor ((quantK p15 m15 (r i * quantK p27 m27 (g7 i)) + g5 i) * p27 + half)) * m27) * p31 + half) * m16 := by
  simp only [k0_pay12, quantK, clampQ, mulf, addf, floor, maximumf, minimumf, tanh, broadcast, Ideal.mulf_def, Ideal.addf_def,
    Ideal.floor_def, Ideal.maximumf_def, Ideal.minimumf_def, Ideal.tanh_def, Ideal.ofBits_def]

/-- The last step: the candidate n rounded to Q15, and n + z * (round h - n). -/
theorem pay1_at (v1 : Vec Ideal S512x512 .f32) (z t : FVec Ideal S512x512 .f32) (i : S512x512.Idx) :
    k0_pay1 (F := Ideal) v1 z t k0_pay13 i
      = Ideal.liftRound Int.floor (t i + half) * m15
        + z i * (quantK p15 m15 (v1 i) - Ideal.liftRound Int.floor (t i + half) * m15) := by
  simp only [k0_pay1, k0_pay13, quantK, mulf, addf, subf, floor, broadcast, Ideal.mulf_def, Ideal.addf_def, Ideal.subf_def,
    Ideal.floor_def, Ideal.ofBits_def]

/-- After the two projections the body is pointwise: at an element it is the cell function of the rounded
    pre-activations at the three gate columns. `g8` is the reset-gate sum, `g4 + g6` the update-gate sum, `g7` the
    hidden-side candidate term, `g5` the input-side one. -/
theorem pointwise_at (v1 : Vec Ideal S512x512 .f32) (g4 g5 g6 g7 g8 : FVec Ideal S512x512 .f32) (i : S512x512.Idx) :
    k0_pay1 (F := Ideal) v1 (k0_pay11 (k0_pay10 g4 g6) (Scalar.ofBits .f32 0x37800000#32)) (k0_pay12 g5 g7 (k0_pay9 g8)) k0_pay13 i
      = tanhK (quantK p15 m15 (sigK (g8 i) * quantK p27 m27 (g7 i)) + g5 i)
        + sigK (g4 i + g6 i)
          * (quantK p15 m15 (v1 i)
            - tanhK (quantK p15 m15 (sigK (g8 i) * quantK p27 m27 (g7 i)) + g5 i)) := by
  rw [pay1_at, pay11_at, pay12_at, pay9_at]
  rfl

/-! ## The gate columns of the two projections -/

/-- Input-side update-gate column: columns [512, 1024) of the first projection. -/
theorem pay4_at (x : Vec Ideal S512x512 .f32) (w : Vec Ideal S512x1536 .bf16) (b : Vec Ideal S1x1536 .f32) (p q : Fin 512) :
    k0_pay4 (F := Ideal) x w b (ix2 p q) = quantK p14 m14 (bpre x w b p (colI q)) := by
  unfold k0_pay4
  refine (extractStridedSlice_apply ![0, 512] (k0_pay2 (F := Ideal) x w b) slices_S512x1536_o0_512_S512x512 (ix2 p q) (ix2 p (colI q)) (fun a => match a with
    | ⟨0, _⟩ => by show p.val = 0 + p.val; omega
    | ⟨1, _⟩ => by show 512 + q.val = 512 + q.val; rfl)).trans ?_
  exact pay2_at x w b p (colI q)

/-- Input-side candidate column: columns [1024, 1536) of the first projection. -/
theorem pay5_at (x : Vec Ideal S512x512 .f32) (w : Vec Ideal S512x1536 .bf16) (b : Vec Ideal S1x1536 .f32) (p q : Fin 512) :
    k0_pay5 (F := Ideal) x w b (ix2 p q) = quantK p14 m14 (bpre x w b p (colN q)) := by
  unfold k0_pay5
  refine (extractStridedSlice_apply ![0, 1024] (k0_pay2 (F := Ideal) x w b) slices_S512x1536_o0_1024_S512x512 (ix2 p q) (ix2 p (colN q)) (fun a => match a with
    | ⟨0, _⟩ => by show p.val = 0 + p.val; omega
    | ⟨1, _⟩ => by show 1024 + q.val = 1024 + q.val; rfl)).trans ?_
  exact pay2_at x w b p (colN q)

/-- Hidden-side update-gate column. -/
theorem pay6_at (x : Vec Ideal S512x512 .f32) (w : Vec Ideal S512x1536 .bf16) (b : Vec Ideal S1x1536 .f32) (p q : Fin 512) :
    k0_pay6 (F := Ideal) x w b (ix2 p q) = quantK p14 m14 (bpre x w b p (colI q)) := by
  unfold k0_pay6
  refine (extractStridedSlice_apply ![0, 512] (k0_pay3 (F := Ideal) x w b) slices_S512x1536_o0_512_S512x512 (ix2 p q) (ix2 p (colI q)) (fun a => match a with
    | ⟨0, _⟩ => by show p.val = 0 + p.val; omega
    | ⟨1, _⟩ => by show 512 + q.val = 512 + q.val; rfl)).trans ?_
  exact pay3_at x w b p (colI q)

/-- Hidden-side candidate column. -/
theorem pay7_at (x : Vec Ideal S512x512 .f32) (w : Vec Ideal S512x1536 .bf16) (b : Vec Ideal S1x1536 .f32) (p q : Fin 512) :
    k0_pay7 (F := Ideal) x w b (ix2 p q) = quantK p14 m14 (bpre x w b p (colN q)) := by
  unfold k0_pay7
  refine (extractStridedSlice_apply ![0, 1024] (k0_pay3 (F := Ideal) x w b) slices_S512x1536_o0_1024_S512x512 (ix2 p q) (ix2 p (colN q)) (fun a => match a with
    | ⟨0, _⟩ => by show p.val = 0 + p.val; omega
    | ⟨1, _⟩ => by show 1024 + q.val = 1024 + q.val; rfl)).trans ?_
  exact pay3_at x w b p (colN q)

/-- The reset-gate sum: columns [0, 512) of both projections, added. -/
theorem pay8_at (x0 x1 : Vec Ideal S512x512 .f32) (x2 x3 : Vec Ideal S512x1536 .bf16) (x4 x5 : Vec Ideal S1x1536 .f32) (p q : Fin 512) :
    k0_pay8 (F := Ideal) x0 x1 x2 x4 x3 x5 (ix2 p q) = quantK p14 m14 (bpre x0 x2 x4 p (colR q)) + quantK p14 m14 (bpre x1 x3 x5 p (colR q)) := by
  show extractStridedSlice S512x512 ![0, 0] (k0_pay2 (F := Ideal) x0 x2 x4) slices_S512x1536_o0_0_S512x512 (ix2 p q)
      + extractStridedSlice S512x512 ![0, 0] (k0_pay3 (F := Ideal) x1 x3 x5) slices_S512x1536_o0_0_S512x512 (ix2 p q) = _
  rw [extractStridedSlice_apply ![0, 0] (k0_pay2 (F := Ideal) x0 x2 x4) slices_S512x1536_o0_0_S512x512 (ix2 p q) (ix2 p (colR q)) (fun a => match a with
      | ⟨0, _⟩ => by show p.val = 0 + p.val; omega
      | ⟨1, _⟩ => by show q.val = 0 + q.val; omega),
    extractStridedSlice_apply ![0, 0] (k0_pay3 (F := Ideal) x1 x3 x5) slices_S512x1536_o0_0_S512x512 (ix2 p q) (ix2 p (colR q)) (fun a => match a with
      | ⟨0, _⟩ => by show p.val = 0 + p.val; omega
      | ⟨1, _⟩ => by show q.val = 0 + q.val; omega),
    pay2_at, pay3_at]

/-! ## What the body stores, at an element of the block -/

theorem hz : (![0, 0] : Fin 2 → Nat) = fun _ => 0 := funext fun a => by fin_cases a <;> rfl

/-- Element (p, q) of the block the body stores is the cell function of the block-level pre-activations of row p at
    the three gate columns of q, and of the hidden block's element (p, q). -/
theorem out_at (x0 x1 : Vec Ideal S512x512 .f32) (x2 x3 : Vec Ideal S512x1536 .bf16) (x4 x5 : Vec Ideal S1x1536 .f32) (p q : Fin 512) :
    out0_6 (F := Ideal) x0 x1 x2 x3 x4 x5 (ix2 p q)
      = cellK (bpre x0 x2 x4 p (colR q)) (bpre x0 x2 x4 p (colI q)) (bpre x0 x2 x4 p (colN q))
          (bpre x1 x3 x5 p (colR q)) (bpre x1 x3 x5 p (colI q)) (bpre x1 x3 x5 p (colN q)) (x1 (ix2 p q)) := by
  unfold out0_6
  rw [View.canon_unit_zero hz]
  simp only [View.ld_unit_zero (S := S512x512) hz, View.ld_unit_zero (S := S512x1536) hz, View.ld_unit_zero (S := S1x1536) hz]
  rw [pointwise_at, pay8_at, pay4_at, pay5_at, pay6_at, pay7_at]
  rfl

/-! ## The arrays the region finds, and the windows' blocks -/

variable (m : (ℓ : Loc nD τ sig) → Buf (Elt Ideal) ℓ) (ρ : Dev nD → PrngReg)

/-- The first weight window stages the transposed input-side weights (the change of float format is the identity). -/
theorem V_wih (c : Dev nD) : (V m c main_v1 : S512x1536.Idx → EReal)
    = truncf (F := Ideal) .bf16 (transpose S512x1536 [1, 0] (m ((c : Thread nD τ).loc main_arg2)) transposes_S1536x512_S512x1536_1_0) bitsLt_bf16_f32 := by
  dsimp only [Gen.V, Gen.hostOps0]; after_results

/-- The second weight window likewise, for the hidden-side weights. -/
theorem V_whh (c : Dev nD) : (V m c main_v3 : S512x1536.Idx → EReal)
    = truncf (F := Ideal) .bf16 (transpose S512x1536 [1, 0] (m ((c : Thread nD τ).loc main_arg3)) transposes_S1536x512_S512x1536_1_0) bitsLt_bf16_f32 := by
  dsimp only [Gen.V, Gen.hostOps0]; after_results

/-- The bias windows stage the biases as one row of 1536. -/
theorem V_bih (c : Dev nD) : (V m c main_v4 : S1x1536.Idx → EReal)
    = shapeCast S1x1536 (m ((c : Thread nD τ).loc main_arg4)) shapeCasts_S1536_S1x1536 := by
  dsimp only [Gen.V, Gen.hostOps0]; after_results; rfl

theorem V_bhh (c : Dev nD) : (V m c main_v5 : S1x1536.Idx → EReal)
    = shapeCast S1x1536 (m ((c : Thread nD τ).loc main_arg5)) shapeCasts_S1536_S1x1536 := by
  dsimp only [Gen.V, Gen.hostOps0]; after_results; rfl

/-- The printed index maps, decided over the sixteen grid points: the data, hidden and output windows move down the
    batch one block of 512 rows per point; the weight and bias windows stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The data window's block at point t is rows 512 t … 512 t + 511 of the data. -/
theorem iblk0_at (c : Dev nD) (t : Fin cfg0.N) (p k : Fin 512) (a : Fin 8192) (ha : a.val = t.val * 512 + p.val) :
    (iblk m c 0 t : Vec Ideal S512x512 .f32) (ix2 p k) = m ((c : Thread nD τ).loc main_arg0) (ix2 a k) := by
  obtain ⟨h0, h1, -⟩ := idx_facts t
  unfold iblk
  rw [View.read_apply]
  show V m c main_arg0 _ = _
  rw [V_main_arg0]
  refine congrArg _ (funext fun d => Fin.ext ?_)
  match d with
  | ⟨0, _⟩ => show win0_0.index t (0 : Fin 2) * 512 + 1 * p.val = a.val; rw [h0, ha]; omega
  | ⟨1, _⟩ => show win0_0.index t (1 : Fin 2) * 512 + 1 * k.val = k.val; rw [h1]; omega

/-- The hidden window's block at point t is the same rows of the hidden state. -/
theorem iblk1_at (c : Dev nD) (t : Fin cfg0.N) (p k : Fin 512) (a : Fin 8192) (ha : a.val = t.val * 512 + p.val) :
    (iblk m c 1 t : Vec Ideal S512x512 .f32) (ix2 p k) = m ((c : Thread nD τ).loc main_arg1) (ix2 a k) := by
  obtain ⟨-, -, h0, h1, -⟩ := idx_facts t
  unfold iblk
  rw [View.read_apply]
  show V m c main_arg1 _ = _
  rw [V_main_arg1]
  refine congrArg _ (funext fun d => Fin.ext ?_)
  match d with
  | ⟨0, _⟩ => show win0_1.index t (0 : Fin 2) * 512 + 1 * p.val = a.val; rw [h0, ha]; omega
  | ⟨1, _⟩ => show win0_1.index t (1 : Fin 2) * 512 + 1 * k.val = k.val; rw [h1]; omega

/-- The first weight window's one block, at every point, is the transposed input-side weight matrix. -/
theorem iblk2_at (c : Dev nD) (t : Fin cfg0.N) (k : Fin 512) (j : Fin 1536) :
    (iblk m c 2 t : Vec Ideal S512x1536 .bf16) (ix2 k j) = m ((c : Thread nD τ).loc main_arg2) (ix2 j k) := by
  obtain ⟨-, -, -, -, h0, h1, -⟩ := idx_facts t
  unfold iblk
  rw [View.read_apply]
  show V m c main_v1 _ = _
  rw [V_wih]
  refine transpose_apply [1, 0] (m ((c : Thread nD τ).loc main_arg2)) transposes_S1536x512_S512x1536_1_0 _ (ix2 j k) (fun b => ?_)
  match b with
  | ⟨0, _⟩ => show k.val = win0_2.index t (0 : Fin 2) * 512 + 1 * k.val; rw [h0]; omega
  | ⟨1, _⟩ => show j.val = win0_2.index t (1 : Fin 2) * 1536 + 1 * j.val; rw [h1]; omega

/-- The second weight window's block is the transposed hidden-side weight matrix. -/
theorem iblk3_at (c : Dev nD) (t : Fin cfg0.N) (k : Fin 512) (j : Fin 1536) :
    (iblk m c 3 t : Vec Ideal S512x1536 .bf16) (ix2 k j) = m ((c : Thread nD τ).loc main_arg3) (ix2 j k) := by
  obtain ⟨-, -, -, -, -, -, h0, h1, -⟩ := idx_facts t
  unfold iblk
  rw [View.read_apply]
  show V m c main_v3 _ = _
  rw [V_whh]
  refine transpose_apply [1, 0] (m ((c : Thread nD τ).loc main_arg3)) transposes_S1536x512_S512x1536_1_0 _ (ix2 j k) (fun b => ?_)
  match b with
  | ⟨0, _⟩ => show k.val = win0_3.index t (0 : Fin 2) * 512 + 1 * k.val; rw [h0]; omega
  | ⟨1, _⟩ => show j.val = win0_3.index t (1 : Fin 2) * 1536 + 1 * j.val; rw [h1]; omega

/-- The first bias window's block is the input-side bias, as a row. -/
theorem iblk4_at (c : Dev nD) (t : Fin cfg0.N) (j : Fin 1536) :
    (iblk m c 4 t : Vec Ideal S1x1536 .f32) (ix2 (⟨0, Nat.one_pos⟩ : Fin 1) j) = m ((c : Thread nD τ).loc main_arg4) (ix1 j) := by
  obtain ⟨-, -, -, -, -, -, -, -, h0, h1, -⟩ := idx_facts t
  unfold iblk
  rw [View.read_apply]
  show V m c main_v4 _ = _
  rw [V_bih]
  refine shapeCast_apply (m ((c : Thread nD τ).loc main_arg4)) shapeCasts_S1536_S1x1536 _ (ix1 j) ?_
  show (S1536.rowMajor (ix1 j)).val = (S1x1536.rowMajor (((cfg0.win 4).blk t).view.emb (ix2 (⟨0, Nat.one_pos⟩ : Fin 1) j))).val
  rw [Shape.rowMajor_val_one, Shape.rowMajor_val_two]
  show j.val = (win0_4.index t (0 : Fin 2) * 1 + 1 * 0) * 1536 + (win0_4.index t (1 : Fin 2) * 1536 + 1 * j.val)
  rw [h0, h1]; omega

/-- The second bias window's block is the hidden-side bias, as a row. -/
theorem iblk5_at (c : Dev nD) (t : Fin cfg0.N) (j : Fin 1536) :
    (iblk m c 5 t : Vec Ideal S1x1536 .f32) (ix2 (⟨0, Nat.one_pos⟩ : Fin 1) j) = m ((c : Thread nD τ).loc main_arg5) (ix1 j) := by
  obtain ⟨-, -, -, -, -, -, -, -, -, -, h0, h1, -⟩ := idx_facts t
  unfold iblk
  rw [View.read_apply]
  show V m c main_v5 _ = _
  rw [V_bhh]
  refine shapeCast_apply (m ((c : Thread nD τ).loc main_arg5)) shapeCasts_S1536_S1x1536 _ (ix1 j) ?_
  show (S1536.rowMajor (ix1 j)).val = (S1x1536.rowMajor (((cfg0.win 5).blk t).view.emb (ix2 (⟨0, Nat.one_pos⟩ : Fin 1) j))).val
  rw [Shape.rowMajor_val_one, Shape.rowMajor_val_two]
  show j.val = (win0_5.index t (0 : Fin 2) * 1 + 1 * 0) * 1536 + (win0_5.index t (1 : Fin 2) * 1536 + 1 * j.val)
  rw [h0, h1]; omega

/-! ## From blocks to the array -/

/-- The input-side pre-activation computed inside the block of point t is the array-level one at batch row
    512 t + p. -/
theorem bpre_x (c : Dev nD) (t : Fin cfg0.N) (p : Fin 512) (j : Fin 1536) (a : Fin 8192) (ha : a.val = t.val * 512 + p.val) :
    bpre (iblk m c 0 t) (iblk m c 2 t) (iblk m c 4 t) p j
      = preact (m ((c : Thread nD τ).loc main_arg0)) (m ((c : Thread nD τ).loc main_arg2)) (m ((c : Thread nD τ).loc main_arg4)) a j := by
  unfold bpre preact
  rw [iblk4_at]
  refine congrArg (· + _) (Finset.sum_congr rfl fun k _ => ?_)
  rw [iblk0_at m c t p k a ha, iblk2_at]

/-- The hidden-side pre-activation likewise. -/
theorem bpre_h (c : Dev nD) (t : Fin cfg0.N) (p : Fin 512) (j : Fin 1536) (a : Fin 8192) (ha : a.val = t.val * 512 + p.val) :
    bpre (iblk m c 1 t) (iblk m c 3 t) (iblk m c 5 t) p j
      = preact (m ((c : Thread nD τ).loc main_arg1)) (m ((c : Thread nD τ).loc main_arg3)) (m ((c : Thread nD τ).loc main_arg5)) a j := by
  unfold bpre preact
  rw [iblk5_at]
  refine congrArg (· + _) (Finset.sum_congr rfl fun k _ => ?_)
  rw [iblk1_at m c t p k a ha, iblk3_at]

theorem N16 : cfg0.N = 16 := N_0

/-- What point t writes back is block t of the new hidden state computed from the argument arrays. -/
theorem flushed_eq (c : Dev nD) (t : Fin cfg0.N) :
    (dats m 0 c).flushed 6 t = ((cfg0.win 6).blk t).view.read (Elt Ideal)
      (hyArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed6]
  refine funext fun (y : S512x512.Idx) => ?_
  obtain ⟨p, q, rfl⟩ : ∃ (p q : Fin 512), y = ix2 p q := ⟨y 0, y 1, eq_ix2 y⟩
  obtain ⟨-, -, -, -, -, -, -, -, -, -, -, -, h0, h1⟩ := idx_facts t
  have hlt : t.val < 16 := lt_of_lt_of_eq t.isLt N16
  obtain ⟨a, ha⟩ : ∃ a : Fin 8192, a.val = t.val * 512 + p.val := ⟨⟨t.val * 512 + p.val, by omega⟩, rfl⟩
  rw [View.read_apply]
  refine Eq.trans ?_ (hyArr_at _ _ _ _ _ _ _ a q ?_ ?_).symm
  · show out0_6 (F := Ideal) (iblk m c 0 t) (iblk m c 1 t) (iblk m c 2 t) (iblk m c 3 t) (iblk m c 4 t) (iblk m c 5 t) (ix2 p q) = _
    refine (out_at (iblk m c 0 t) (iblk m c 1 t) (iblk m c 2 t) (iblk m c 3 t) (iblk m c 4 t) (iblk m c 5 t) p q).trans ?_
    unfold hyK
    rw [bpre_x m c t p _ a ha, bpre_x m c t p _ a ha, bpre_x m c t p _ a ha, bpre_h m c t p _ a ha, bpre_h m c t p _ a ha,
      bpre_h m c t p _ a ha, iblk1_at m c t p q a ha]
  · show win0_6.index t (0 : Fin 2) * 512 + 1 * p.val = a.val
    rw [h0, ha]; omega
  · show win0_6.index t (1 : Fin 2) * 512 + 1 * q.val = q.val
    rw [h1]; omega

/-- An index of the output array is in point t's block iff each coordinate is in the block's range on its axis. -/
theorem mem_blk (t : Fin cfg0.N) (i : S8192x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v6).slice (win0_6.rect t)).set ↔ _
  rw [View.set_slice_whole, Rect.mem_set_unit]
  exact Iff.rfl

/-- Every index of the output array is in some point's block: row r is in the block of point r / 512. -/
theorem covered (i : S8192x512.Idx) : ∃ t : Fin cfg0.N, (cfg0.win 6).flush t = true ∧ i ∈ ((cfg0.win 6).blk t).view.set := by
  have hi0 : (i 0).val < 8192 := (i 0).isLt
  have hi1 : (i 1).val < 512 := (i 1).isLt
  obtain ⟨t, ht⟩ : ∃ t : Fin cfg0.N, t.val = (i 0).val / 512 := ⟨⟨(i 0).val / 512, lt_of_lt_of_eq (by omega : (i 0).val / 512 < 16) N16.symm⟩, rfl⟩
  obtain ⟨-, -, -, -, -, -, -, -, -, -, -, -, h0, h1⟩ := idx_facts t
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    rw [h0, ht]; omega
  | ⟨1, _⟩ =>
    show win0_6.index t (1 : Fin 2) * 512 ≤ (i 1).val ∧ (i 1).val < win0_6.index t (1 : Fin 2) * 512 + 512
    rw [h1]; omega

/-- The output array after the run is the new hidden state computed from the argument arrays. -/
theorem final (c : Dev nD) : (dats m 0 c).arrAt 6 cfg0.N
    = hyArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed_eq m c t) covered

/-- The kernel's run, read: the result array holds the new hidden state, the arguments are unchanged. -/
theorem run : θ_run defs (onTc (τ := τ) (main (F := Ideal))) ⟨m, fun _ => 0, ρ⟩ fun r => ∀ c : Dev nD,
      r.2.mem ((c : Thread nD τ).loc main_v6)
        = hyArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KernelValue
end
-- ==== Proof.lean ====
/-
  The quantised GRU cell: the fused kernel against its array-level reference.

  Both programs compute, for batch row a and hidden column q, the cell function of the six pre-activations
  (data row a against the reset, update and candidate rows q, 512 + q, 1024 + q of the input-side weights, plus bias;
  hidden row a against the same rows of the hidden-side weights, plus bias) and of the hidden state at (a, q).
  The kernel walks the batch in sixteen blocks of 512 rows with the transposed weights and the biases resident, and
  rounds onto the fixed-point grids by multiplying with reciprocal powers of two; the reference divides by the powers
  of two, spells the logistic function out, and writes each rounding as x + (round x - x). With floats read as
  extended reals the two agree once every rounded quantity is a real number, which the precondition (all entries of
  all arguments finite) gives: sums of products of real numbers are real, the clamps make the arguments of the
  sigmoid and the hyperbolic tangent real, and floors of real numbers are real.

  The kernel's result array is read off its run block by block (KernelValue), the reference's result is its last
  stage read at an index (RefValue), the two spellings of the cell are joined in Cell and Spec, and the precondition is
  read in Finite. No operation was rewritten when the kernel was idealized, so the preservation claim is trivial.
-/
import proofs.«143563_j89034672046904_1_alg».proof.Defs
import proofs.«143563_j89034672046904_1_alg».proof.Proof.Gen.Kernel
import proofs.«143563_j89034672046904_1_alg».proof.Proof.Gen.Kernel.Skeleton
import proofs.«143563_j89034672046904_1_alg».proof.Proof.Gen.Kernel.Launch
import proofs.«143563_j89034672046904_1_alg».proof.Proof.Gen.Kernel.Points
import proofs.«143563_j89034672046904_1_alg».proof.Proof.Gen.Kernel.Frame
import proofs.«143563_j89034672046904_1_alg».proof.Proof.Gen.KernelIdeal
import proofs.«143563_j89034672046904_1_alg».proof.Proof.Gen.KernelIdeal.Skeleton
import proofs.«143563_j89034672046904_1_alg».proof.Proof.Gen.KernelIdeal.Launch
import proofs.«143563_j89034672046904_1_alg».proof.Proof.Gen.KernelIdeal.Points
import proofs.«143563_j89034672046904_1_alg».proof.Proof.Gen.KernelIdeal.Frame
import proofs.«143563_j89034672046904_1_alg».proof.Proof.Gen.ReferenceIdeal
import proofs.«143563_j89034672046904_1_alg».proof.Proof.Gen.Pre_finite_inputs
import proofs.«143563_j89034672046904_1_alg».proof.Proof.Gen.KernelIdeal.Value
import proofs.«143563_j89034672046904_1_alg».proof.Proof.Gen.ReferenceIdeal.Run
import proofs.«143563_j89034672046904_1_alg».proof.Proof.Gen.ReferenceIdeal.Read
import proofs.«143563_j89034672046904_1_alg».proof.Proof.Finite
import proofs.«143563_j89034672046904_1_alg».proof.Proof.RefValue
import proofs.«143563_j89034672046904_1_alg».proof.Proof.KernelValue
import Idealize.ShloMosaic.Adequacy
import Idealize.ShloMosaic.Init

noncomputable section

namespace Cert.Proof

open Idealize.ShloMosaic Idealize.ShloMosaic.TcCoe Idealize.SL.Sem Cert.QGru

/-- The kernel as printed runs and leaves its arguments unchanged. -/
theorem frame_k [Cert.Kernel.Facts] [Cert.Pre_finite_inputs.Facts] : Cert.frame_Kernel :=
  fun m ρ _ => Cert.Kernel.Gen.frame m ρ

/-- So does its idealization. -/
theorem frame_ki [Cert.KernelIdeal.Facts] [Cert.Pre_finite_inputs.Facts] : Cert.frame_KernelIdeal :=
  fun m ρ _ => Cert.KernelIdeal.Gen.frame m ρ

/-- The reference is a straight line of array operations: its run, with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both results are the new hidden state of the argument arrays: the kernel's by its run read block by block, the
    reference's by its last stage read at an index and the two spellings of the cell joined on real numbers. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => hyArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5⟩ := allR_of_pre _ _ _ _ _ _ (hpre c)
  rw [Cert.ReferenceIdeal.Read.val_main_v140_eq, (hagree c).1, (hagree c).2.1, (hagree c).2.2.1, (hagree c).2.2.2.1,
    (hagree c).2.2.2.2.1, (hagree c).2.2.2.2.2]
  funext i
  rw [Cert.ReferenceIdeal.RefValue.ref_eq, hyR_eq r0 r1 r2 r3 r4 r5]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
